-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S512x512 : Shape := ⟨2, ![512, 512]⟩
abbrev S512 : Shape := ⟨1, ![512]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S32768x512 .f32) (main_arg1 : FVec F S512x512 .f32) (main_arg2 : FVec F S512 .f32) (main_arg3 : FVec F S512 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S32768x512 : Shape := ⟨2, ![32768, 512]⟩
abbrev S512x512 : Shape := ⟨2, ![512, 512]⟩
abbrev S512 : Shape := ⟨1, ![512]⟩
abbrev S1x512 : Shape := ⟨2, ![1, 512]⟩
abbrev S2048x512 : Shape := ⟨2, ![2048, 512]⟩

abbrev nBuf : Space → Nat
  | .hbm => 9
  | .vmem => 7
  | .smem => 0
  | _ => 0

abbrev bufTy : (tb : Table) → Fin (tcTables nBuf tb) → BufTy
  | .hbm, ⟨0, _⟩ => ⟨S32768x512, .f32⟩
  | .hbm, ⟨1, _⟩ => ⟨S512x512, .f32⟩
  | .hbm, ⟨2, _⟩ => ⟨S512, .f32⟩
  | .hbm, ⟨3, _⟩ => ⟨S512, .f32⟩
  | .hbm, ⟨4, _⟩ => ⟨S512x512, .f32⟩
  | .hbm, ⟨5, _⟩ => ⟨S512x512, .bf16⟩
  | .hbm, ⟨6, _⟩ => ⟨S1x512, .f32⟩
  | .hbm, ⟨7, _⟩ => ⟨S1x512, .f32⟩
  | .hbm, ⟨8, _⟩ => ⟨S32768x512, .f32⟩
  | .local _ .vmem, ⟨0, _⟩ => ⟨S2048x512, .f32⟩
  | .local _ .vmem, ⟨1, _⟩ => ⟨S2048x512, .f32⟩
  | .local _ .vmem, ⟨2, _⟩ => ⟨S512x512, .bf16⟩
  | .local _ .vmem, ⟨3, _⟩ => ⟨S1x512, .f32⟩
  | .local _ .vmem, ⟨4, _⟩ => ⟨S1x512, .f32⟩
  | .local _ .vmem, ⟨5, _⟩ => ⟨S2048x512, .f32⟩
  | .local _ .vmem, ⟨6, _⟩ => ⟨S2048x512, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def k0_mult1 : BitVec 32 :=
  let c0_i32 : BitVec 32 := 0#32
  let c512_i32 : BitVec 32 := 512#32
  let v6 : BitVec 32 := Scalar.muli c0_i32 c512_i32
  v6
def k0_off1 (c0_i32 : BitVec 32) : Fin 2 → Nat :=
  let c512_i32 : BitVec 32 := 512#32
  let v6 : BitVec 32 := Scalar.muli c0_i32 c512_i32
  let v7 : BitVec 32 := v6
  let v8 : Index := Scalar.indexCast v7
  let c0_5 : Index := 0#32
  ![v8.toNat, 0]
def k0_mult2 : BitVec 32 :=
  let c1_i32 : BitVec 32 := 1#32
  let c512_i32_7 : BitVec 32 := 512#32
  let v19 : BitVec 32 := Scalar.muli c1_i32 c512_i32_7
  v19
def k0_mult3 : BitVec 32 :=
  let c2_i32 : BitVec 32 := 2#32
  let c512_i32_11 : BitVec 32 := 512#32
  let v32 : BitVec 32 := Scalar.muli c2_i32 c512_i32_11
  v32
def k0_mult4 : BitVec 32 :=
  let c3_i32 : BitVec 32 := 3#32
  let c512_i32_15 : BitVec 32 := 512#32
  let v45 : BitVec 32 := Scalar.muli c3_i32 c512_i32_15
  v45
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S512x512_S512x512_1_0 : S512x512.Transposes [1, 0] S512x512
  bitsLt_bf16_f32 : FTy.bits .bf16 < FTy.bits .f32
  shapeCasts_S512_S1x512 : S512.ShapeCasts S1x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  dot_S512x512_S512x512_S512x512_1_0_0_1_n_n_wf : DotDims.WF S512x512 S512x512 S512x512 [1] [0] [0] [1] [] []
  hrank0 : 0 < grid0.rank
  k0_mult1_dvd : 512 ∣ k0_mult1.toNat
  k0_off1_inb : ∀ (r : Fin 4), ∀ a, (k0_off1 (BitVec.ofNat 32 r.val)) a + S512x512.size a ≤ S2048x512.size a
  k0_mult2_dvd : 512 ∣ k0_mult2.toNat
  k0_mult3_dvd : 512 ∣ k0_mult3.toNat
  k0_mult4_dvd : 512 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S32768x512.size a
  hwx0_0 : ∀ i : grid0.Coords, EltTy.bits .f32 = 32 ∨ (Rect.block (s := S32768x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S32768x512.size a
  hwx0_4 : ∀ i : grid0.Coords, EltTy.bits .f32 = 32 ∨ (Rect.block (s := S32768x512) S2048x512.size (cc0_transform_4 i) (hinb0_4 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S2048x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32768x512 : Shape := ⟨2, ![32768, 512]⟩
abbrev S512x512 : Shape := ⟨2, ![512, 512]⟩
abbrev S512 : Shape := ⟨1, ![512]⟩
abbrev S1x512 : Shape := ⟨2, ![1, 512]⟩

abbrev nBuf : Space → Nat
  | .hbm => 12
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S512x512, .f32⟩
  | .hbm, ⟨2, _⟩ => ⟨S512, .f32⟩
  | .hbm, ⟨3, _⟩ => ⟨S512, .f32⟩
  | .hbm, ⟨4, _⟩ => ⟨S32768x512, .f32⟩
  | .hbm, ⟨5, _⟩ => ⟨S1x512, .f32⟩
  | .hbm, ⟨6, _⟩ => ⟨S32768x512, .f32⟩
  | .hbm, ⟨7, _⟩ => ⟨S32768x512, .f32⟩
  | .hbm, ⟨8, _⟩ => ⟨S1x512, .f32⟩
  | .hbm, ⟨9, _⟩ => ⟨S32768x512, .f32⟩
  | .hbm, ⟨10, _⟩ => ⟨S32768x512, .f32⟩
  | .hbm, ⟨11, _⟩ => ⟨S32768x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  dot_S32768x512_S512x512_S32768x512_1_1_0_0_n_n_wf : DotDims.WF S32768x512 S512x512 S32768x512 [1] [1] [0] [0] [] []

variable [Facts₀]

def dot_S32768x512_S512x512_S32768x512_1_1_0_0_n_n : DotDims S32768x512 S512x512 S32768x512 where
  lhsContracting := [1]
  rhsContracting := [1]
  lhsNonContracting := [0]
  rhsNonContracting := [0]
  lhsBatch := []
  rhsBatch := []
  wf := dot_S32768x512_S512x512_S32768x512_1_1_0_0_n_n_wf

class Facts : Prop extends Facts₀ where

variable [Facts]
-- ==== Proof.ActSpec.lean ====
/-
  The activation both programs compute, as ONE function of arrays, entry by entry, on the extended reals:

      out[r, f] = tanh(a_f · (Σ_d x[r, d] · w[f, d]) + b_f),   d and f over 512 features, r over any number of rows.

  It is written in two layouts of the same data. `rowAct` reads the weights with feature f in ROW f (w[f, d]) and the
  scale and shift as vectors: the layout of the arguments. `colAct` reads the weights as the transposed matrix, feature f
  in COLUMN f (wt[d, f]), and the scale and shift as one-row matrices: the layout a block of the computation is handed.
  The contraction runs over d in the same order with the same factors in the same order in both, so passing from one
  layout to the other is a renaming of entries and needs no law of arithmetic (`colAct_eq_rowAct`); neither does
  restricting the rows to a band of them (`colAct_rows`).
-/
import Idealize.ShloMosaic.Lib.ValueIdx
import Idealize.ShloMosaic.PureOps.Ideal

noncomputable section

namespace RankAct

open Idealize.ShloMosaic Idealize.ShloMosaic.ValueIdx

/-- The row of a rank-2 index, at the literal extent. -/
abbrev rowOf {R C : Nat} (i : (⟨2, ![R, C]⟩ : Shape).Idx) : Fin R := ⟨(i 0).val, idx2_lt0 i⟩
/-- The column of a rank-2 index, at the literal extent. -/
abbrev colOf {R C : Nat} (i : (⟨2, ![R, C]⟩ : Shape).Idx) : Fin C := ⟨(i 1).val, idx2_lt1 i⟩

/-- tanh(a2[0, f] · (Σ_d x[r, d] · wt[d, f]) + b2[0, f]) at the entry (r, f): the weights by column. -/
def colAct {R : Nat} (x : (⟨2, ![R, 512]⟩ : Shape).Idx → EReal) (wt : (⟨2, ![512, 512]⟩ : Shape).Idx → EReal)
    (a2 b2 : (⟨2, ![1, 512]⟩ : Shape).Idx → EReal) : (⟨2, ![R, 512]⟩ : Shape).Idx → EReal := fun i =>
  Ideal.tanh (a2 (ix2 (0 : Fin 1) (colOf i)) * (∑ k : Fin 512, x (ix2 (rowOf i) k) * wt (ix2 k (colOf i)))
    + b2 (ix2 (0 : Fin 1) (colOf i)))

/-- tanh(a[f] · (Σ_d x[r, d] · w[f, d]) + b[f]) at the entry (r, f): the weights by row. -/
def rowAct {R : Nat} (x : (⟨2, ![R, 512]⟩ : Shape).Idx → EReal) (w : (⟨2, ![512, 512]⟩ : Shape).Idx → EReal)
    (a b : (⟨1, ![512]⟩ : Shape).Idx → EReal) : (⟨2, ![R, 512]⟩ : Shape).Idx → EReal := fun i =>
  Ideal.tanh (a (ix1 (colOf i)) * (∑ k : Fin 512, x (ix2 (rowOf i) k) * w (ix2 (colOf i) k)) + b (ix1 (colOf i)))

/-- An entry depends on ONE row of `x` and on its column: two arrays of rows that agree on that row give the same
    entry in that column, whatever their other rows and however many there are. -/
theorem colAct_rows {R R' : Nat} (x : (⟨2, ![R, 512]⟩ : Shape).Idx → EReal) (xs : (⟨2, ![R', 512]⟩ : Shape).Idx → EReal)
    (wt : (⟨2, ![512, 512]⟩ : Shape).Idx → EReal) (a2 b2 : (⟨2, ![1, 512]⟩ : Shape).Idx → EReal)
    (i' : (⟨2, ![R', 512]⟩ : Shape).Idx) (i : (⟨2, ![R, 512]⟩ : Shape).Idx)
    (hrow : ∀ k : Fin 512, xs (ix2 (rowOf i') k) = x (ix2 (rowOf i) k)) (hcol : (i' 1).val = (i 1).val) :
    colAct xs wt a2 b2 i' = colAct x wt a2 b2 i := by
  have hc : colOf i' = colOf i := Fin.ext hcol
  unfold colAct
  rw [hc]
  simp only [hrow]

/-- The two layouts name the same number: with wt[d, f] = w[f, d], a2[0, f] = a[f], b2[0, f] = b[f] and the rows of
    the band read out of the array, the entry by columns is the entry by rows. -/
theorem colAct_eq_rowAct {R R' : Nat} (xb : (⟨2, ![R', 512]⟩ : Shape).Idx → EReal) (x : (⟨2, ![R, 512]⟩ : Shape).Idx → EReal)
    (wt w : (⟨2, ![512, 512]⟩ : Shape).Idx → EReal) (a2 b2 : (⟨2, ![1, 512]⟩ : Shape).Idx → EReal)
    (a b : (⟨1, ![512]⟩ : Shape).Idx → EReal)
    (y : (⟨2, ![R', 512]⟩ : Shape).Idx) (i : (⟨2, ![R, 512]⟩ : Shape).Idx)
    (hx : ∀ k : Fin 512, xb (ix2 (rowOf y) k) = x (ix2 (rowOf i) k)) (hcol : (y 1).val = (i 1).val)
    (hw : ∀ k f : Fin 512, wt (ix2 k f) = w (ix2 f k))
    (ha : ∀ f : Fin 512, a2 (ix2 (0 : Fin 1) f) = a (ix1 f)) (hb : ∀ f : Fin 512, b2 (ix2 (0 : Fin 1) f) = b (ix1 f)) :
    colAct xb wt a2 b2 y = rowAct x w a b i := by
  have hc : colOf y = colOf i := Fin.ext hcol
  unfold colAct rowAct
  rw [hc]
  simp only [hx, hw, ha, hb]

end RankAct

end
-- ==== Proof.LibPlainDot.lean ====
/-
  A plain matrix product read at an index.

  For a contraction of an M×K matrix with a K×N matrix along the shared axis (the left operand's axis 1 against the
  right operand's axis 0, no batch axes), the entry at row r and column c is the sum over k of A[r, k] · B[k, c].
  This holds for the kernel's matrix product into a zero accumulator and for the host's dot product alike, on the
  extended reals, and it is stated for ANY dimension-number record with those axis lists, so that each printed record
  is an instance by reflexivity of its lists.
-/
import Idealize.ShloMosaic.Lib.ValueIdx
import Idealize.ShloMosaic.PureOps.Ideal.Laws

noncomputable section

namespace PlainDot

open Idealize.ShloMosaic Idealize.ShloMosaic.ValueIdx

variable {M K N : Nat} {φ₁ φ₂ : FTy}

/-- The axis lists of a plain product. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable (d : DotDims ⟨2, ![M, K]⟩ ⟨2, ![K, N]⟩ ⟨2, ![M, N]⟩) (hd : IsPlain d)

include hd

theorem contr_rank : d.contr.rank = 1 := by rw [d.rank_contr, hd.lc]; rfl

theorem contr_size : d.contr.size ⟨0, by rw [contr_rank d hd]; exact Nat.one_pos⟩ = K := by
  have h := d.size_contr 0 (by rw [hd.lc]; exact Nat.one_pos)
  rw [h]
  simp [hd.lc]

/-- The left operand is read at row `r`, column the contraction coordinate. -/
theorem lhsIdx_eq (r : Fin M) (c : Fin N) (k : Fin K) :
    d.lhsIdx (ix2 r c) ((contrEquiv1 d K (contr_rank d hd) (contr_size d hd)).symm k) = ix2 r k := by
  funext a
  apply Fin.ext
  match a with
  | ⟨0, _⟩ =>
    show (d.lhsIdx (ix2 r c) _ (0 : Fin 2)).val = r.val
    unfold DotDims.lhsIdx
    have hb : (0 : Fin 2) ∉ d.lhsBatch := by rw [hd.lb]; exact List.not_mem_nil
    have hn : (0 : Fin 2) ∈ d.lhsNonContracting := by rw [hd.ln]; exact List.mem_singleton.mpr rfl
    rw [dif_neg hb, dif_pos hn]
    simp only [Fin.val_cast]
    have key : ∀ (p : Nat) (hp : p < 2), p = 0 → ((ix2 r c : (⟨2, ![M, N]⟩ : Shape).Idx) ⟨p, hp⟩).val = r.val :=
      fun p hp h => by subst h; rfl
    exact key _ _ (by simp [hd.lb, hd.ln])
  | ⟨1, _⟩ =>
    show (d.lhsIdx (ix2 r c) _ (1 : Fin 2)).val = k.val
    rw [d.lhsIdx_val_of_single hd.lc]
    exact contrEquiv1_symm_val d K (contr_rank d hd) (contr_size d hd) k

/-- The right operand is read at row the contraction coordinate, column `c`. -/
theorem rhsIdx_eq (r : Fin M) (c : Fin N) (k : Fin K) :
    d.rhsIdx (ix2 r c) ((contrEquiv1 d K (contr_rank d hd) (contr_size d hd)).symm k) = ix2 k c := by
  funext a
  apply Fin.ext
  match a with
  | ⟨0, _⟩ =>
    show (d.rhsIdx (ix2 r c) _ (0 : Fin 2)).val = k.val
    rw [d.rhsIdx_val_of_single hd.rc]
    exact contrEquiv1_symm_val d K (contr_rank d hd) (contr_size d hd) k
  | ⟨1, _⟩ =>
    show (d.rhsIdx (ix2 r c) _ (1 : Fin 2)).val = c.val
    unfold DotDims.rhsIdx
    have hb : (1 : Fin 2) ∉ d.rhsBatch := by rw [hd.rb]; exact List.not_mem_nil
    have hn : (1 : Fin 2) ∈ d.rhsNonContracting := by rw [hd.rn]; exact List.mem_singleton.mpr rfl
    rw [dif_neg hb, dif_pos hn]
    simp only [Fin.val_cast]
    have key : ∀ (p : Nat) (hp : p < 2), p = 1 → ((ix2 r c : (⟨2, ![M, N]⟩ : Shape).Idx) ⟨p, hp⟩).val = c.val :=
      fun p hp h => by subst h; rfl
    exact key _ _ (by simp [hd.lb, hd.ln, hd.rn])

/-- The contraction sum, re-indexed by the shared axis's coordinate. -/
theorem sum_eq (A : (⟨2, ![M, K]⟩ : Shape).Idx → EReal) (B : (⟨2, ![K, N]⟩ : Shape).Idx → EReal) (r : Fin M) (c : Fin N) :
    (∑ q : d.contr.Idx, A (d.lhsIdx (ix2 r c) q) * B (d.rhsIdx (ix2 r c) q)) = ∑ k : Fin K, A (ix2 r k) * B (ix2 k c) := by
  rw [← Equiv.sum_comp (contrEquiv1 d K (contr_rank d hd) (contr_size d hd)).symm]
  exact Finset.sum_congr rfl fun k _ => by rw [lhsIdx_eq d hd r c k, rhsIdx_eq d hd r c k]

/-- The kernel's matrix product into the zero accumulator, at an entry. -/
theorem matmul_zero_apply (prec : Option ContractPrecision) (A : FVec Ideal ⟨2, ![M, K]⟩ φ₁) (B : FVec Ideal ⟨2, ![K, N]⟩ φ₂)
    (r : Fin M) (c : Fin N) :
    FloatOps.matmul d prec A B (constant ⟨2, ![M, N]⟩ .f32 0x00000000#32) (ix2 r c) = ∑ k : Fin K, A (ix2 r k) * B (ix2 k c) := by
  rw [Ideal.matmul_constant_zero_apply]
  exact sum_eq d hd A B r c

/-- The host's dot product, at an entry. -/
theorem dotGeneral_apply (prec : Option ContractPrecision) (sched : HostSchedule) (A : FVec Ideal ⟨2, ![M, K]⟩ φ₁)
    (B : FVec Ideal ⟨2, ![K, N]⟩ φ₂) (r : Fin M) (c : Fin N) :
    FloatOps.dotGeneral d prec sched A B (ix2 r c) = ∑ k : Fin K, A (ix2 r k) * B (ix2 k c) := by
  rw [Ideal.dotGeneral_apply]
  exact sum_eq d hd A B r c

end PlainDot

end
-- ==== Proof.Band.lean ====
/-
  One band of the kernel body, entry by entry.

  The body cuts its block of 2048 rows into four bands of 512 rows and does the same to each: the band of x (its
  narrowing to bf16 is the identity on extended reals) is multiplied into the [512, 512] matrix wt from a zero
  accumulator, the product is scaled column by column by the one-row matrix a2, shifted by the one-row matrix b2, and
  passed through tanh. At the entry (p, q) of the band that is

      tanh(a2[0, q] · (Σ_k xs[p, k] · wt[k, q]) + b2[0, q]),

  the activation with the weights read by column (`RankAct.colAct`) of the band's own rows: the product into the zero
  accumulator is the plain sum over the shared axis, and a one-row matrix broadcast over the rows reads its column.
  The four stores' values are this expression of four different bands; two of them reach it through values the body
  computed once and kept (the same-shape casts of wt, a2, b2, which are the identity), which is all that distinguishes them.
-/
import proofs.«419012_j32212254720543_3_alg».proof.Proof.Gen.KernelIdeal.Skeleton
import proofs.«419012_j32212254720543_3_alg».proof.Proof.ActSpec
import proofs.«419012_j32212254720543_3_alg».proof.Proof.LibPlainDot
import Idealize.ShloMosaic.Lib.ValueLayout
import Idealize.ShloMosaic.Lib.Pipeline.Value

noncomputable section

namespace Cert.KernelIdeal.Band

open Cert.KernelIdeal Cert.KernelIdeal.Gen Idealize.ShloMosaic Idealize.ShloMosaic.ValueIdx RankAct

/-- The body's matrix product contracts the left operand's columns with the right operand's rows, nothing batched. -/
theorem dot_plain : PlainDot.IsPlain dot_S512x512_S512x512_S512x512_1_0_0_1_n_n := ⟨rfl, rfl, rfl, rfl, rfl, rfl⟩

/-- The band's arithmetic at the entry (p, q). -/
theorem band_apply (xs : FVec Ideal S512x512 .f32) (wt : FVec Ideal S512x512 .bf16) (a2 b2 : FVec Ideal S1x512 .f32)
    (p q : Fin 512) :
    tanh (addf (mulf (broadcastTo S512x512 a2 broadcasts_S1x512_S512x512)
        (FloatOps.matmul dot_S512x512_S512x512_S512x512_1_0_0_1_n_n none (truncf .bf16 xs bitsLt_bf16_f32) wt
          (constant S512x512 .f32 0x00000000#32)))
      (broadcastTo S512x512 b2 broadcasts_S1x512_S512x512)) (ix2 p q)
    = colAct xs wt a2 b2 (ix2 p q) := by
  show Ideal.tanh (broadcastTo S512x512 a2 broadcasts_S1x512_S512x512 (ix2 p q)
      * FloatOps.matmul dot_S512x512_S512x512_S512x512_1_0_0_1_n_n none (truncf .bf16 xs bitsLt_bf16_f32) wt
          (constant S512x512 .f32 0x00000000#32) (ix2 p q)
      + broadcastTo S512x512 b2 broadcasts_S1x512_S512x512 (ix2 p q)) = _
  rw [broadcastTo_1b_ab_apply a2 _ p q, broadcastTo_1b_ab_apply b2 _ p q,
    PlainDot.matmul_zero_apply _ dot_plain none _ wt p q]
  rfl

/-- The band's arithmetic as a whole array. -/
theorem band_eq (xs : FVec Ideal S512x512 .f32) (wt : FVec Ideal S512x512 .bf16) (a2 b2 : FVec Ideal S1x512 .f32) :
    tanh (addf (mulf (broadcastTo S512x512 a2 broadcasts_S1x512_S512x512)
        (FloatOps.matmul dot_S512x512_S512x512_S512x512_1_0_0_1_n_n none (truncf .bf16 xs bitsLt_bf16_f32) wt
          (constant S512x512 .f32 0x00000000#32)))
      (broadcastTo S512x512 b2 broadcasts_S1x512_S512x512))
    = colAct xs wt a2 b2 := by
  funext j
  obtain ⟨p, q, rfl⟩ : ∃ (p q : Fin 512), j = ix2 p q := ⟨j 0, j 1, eq_ix2 j⟩
  exact band_apply xs wt a2 b2 p q

/-! The four stores' values. -/

/-- Rows 0 to 511. -/
theorem first_eq (wt : Vec Ideal S512x512 .bf16) (a2 b2 : Vec Ideal S1x512 .f32) (xs : Vec Ideal S512x512 .f32) :
    k0_pay6 (F := Ideal) wt a2 b2 xs = colAct xs wt a2 b2 := by
  unfold k0_pay6 k0_pay3 k0_pay4 k0_pay5
  simp only [shapeCast_self]
  exact band_eq xs wt a2 b2

/-- Rows 512 to 1023. -/
theorem second_eq (wt : Vec Ideal S512x512 .bf16) (a2 b2 : Vec Ideal S1x512 .f32) (xs : Vec Ideal S512x512 .f32) :
    k0_pay7 (F := Ideal) wt a2 b2 xs = colAct xs wt a2 b2 := by
  unfold k0_pay7 k0_pay3 k0_pay4 k0_pay5
  simp only [shapeCast_self]
  exact band_eq xs wt a2 b2

/-- Rows 1024 to 1535: the band was narrowed, and the casts of wt, a2, b2 taken, before the value is formed. -/
theorem third_eq (wt : Vec Ideal S512x512 .bf16) (a2 b2 : Vec Ideal S1x512 .f32) (xs : Vec Ideal S512x512 .f32) :
    k0_pay1 (F := Ideal) (k0_pay3 wt) (k0_pay4 a2) (k0_pay5 b2) (k0_pay8 xs) (constant S512x512 .f32 0x00000000#32)
      = colAct xs wt a2 b2 := by
  unfold k0_pay1 k0_pay3 k0_pay4 k0_pay5 k0_pay8
  simp only [shapeCast_self]
  exact band_eq xs wt a2 b2

/-- Rows 1536 to 2047. -/
theorem fourth_eq (wt : Vec Ideal S512x512 .bf16) (a2 b2 : Vec Ideal S1x512 .f32) (xs : Vec Ideal S512x512 .f32) :
    k0_pay2 (F := Ideal) (k0_pay3 wt) (k0_pay4 a2) (k0_pay5 b2) xs = colAct xs wt a2 b2 := by
  unfold k0_pay2 k0_pay3 k0_pay4 k0_pay5
  simp only [shapeCast_self]
  exact band_eq xs wt a2 b2

end Cert.KernelIdeal.Band

end
-- ==== Proof.Block.lean ====
/-
  What the kernel body leaves in its output block: the activation, weights by column, of its four input blocks.

  The body's four stores write the four bands of 512 rows that tile the 2048-row block, each band's value being the
  activation of the same band of the input block x0 (read through the same rectangle) against the same wt, a2, b2.
  An entry of the activation depends on one row of x only, so the band's entry (p, q) IS the block's entry (o + p, q),
  o the band's first row: every store writes a piece of ONE function of the block index, and a buffer filled by
  pieces of one function holds that function wherever a piece covers — which here is everywhere.
-/
import proofs.«419012_j32212254720543_3_alg».proof.Proof.Gen.KernelIdeal.Frame
import proofs.«419012_j32212254720543_3_alg».proof.Proof.Band
import Idealize.ShloMosaic.Lib.Pipeline.Value
import Idealize.ShloMosaic.Lib.Tactic

set_option maxRecDepth 16384

noncomputable section

namespace Cert.KernelIdeal.Block

open Cert.KernelIdeal Cert.KernelIdeal.Gen Idealize.ShloMosaic Idealize.ShloMosaic.TcCoe Idealize.ShloMosaic.Tactic
open Idealize.ShloMosaic.ValueIdx RankAct Idealize.SL.Sem

theorem hz : (![0, 0] : Fin 2 → Nat) = fun _ => 0 := funext fun a => by fin_cases a <;> rfl

/-- The band of rows o to o + 511 of the block, read through its rectangle, has as its entry (p, q) the block's entry
    (o + p, q). -/
theorem band_in_block (o : Nat) (inb : ∀ a, (![o, 0] : Fin 2 → Nat) a + (![512, 512] : Fin 2 → Nat) a ≤ S2048x512.size a)
    (x0 : Vec Ideal S2048x512 .f32) (wt : Vec Ideal S512x512 .bf16) (a2 b2 : Vec Ideal S1x512 .f32)
    (x : (Rect.unit (s := S2048x512) ![o, 0] ![512, 512] inb).shape.Idx) :
    colAct (View.ld x0 (Rect.unit (s := S2048x512) ![o, 0] ![512, 512] inb)) wt a2 b2 x
      = colAct x0 wt a2 b2 ((Rect.unit (s := S2048x512) ![o, 0] ![512, 512] inb).emb x) := by
  refine colAct_rows x0 _ wt a2 b2 x _ (fun k => ?_) ?_
  · -- the band's row p is the block's row o + p, column for column
    show x0 ((Rect.unit (s := S2048x512) ![o, 0] ![512, 512] inb).idx (ix2 (rowOf x) k)) = x0 _
    refine congrArg x0 (funext fun a => Fin.ext ?_)
    match a with
    | ⟨0, _⟩ => rfl
    | ⟨1, _⟩ => show 0 + 1 * k.val = k.val; omega
  · show (x 1).val = 0 + 1 * (x 1).val; omega

/-- THE BLOCK the body leaves, whatever staging buffers it is run on and whatever the output buffer held: at every
    entry the activation, weights by column, of the input blocks. -/
theorem out_eq (c : Dev nD) (i : grid0.Coords) (arg1 : Memref sig .tc .vmem S2048x512 .f32) (harg1 : arg1.IsWhole)
    (arg2 : Memref sig .tc .vmem S512x512 .bf16) (harg2 : arg2.IsWhole) (arg3 : Memref sig .tc .vmem S1x512 .f32) (harg3 : arg3.IsWhole)
    (arg4 : Memref sig .tc .vmem S1x512 .f32) (harg4 : arg4.IsWhole) (arg5 : Memref sig .tc .vmem S2048x512 .f32) (harg5 : arg5.IsWhole)
    (x0 : Vec Ideal S2048x512 .f32) (x1 : Vec Ideal S512x512 .bf16) (x2 x3 : Vec Ideal S1x512 .f32) (y : S2048x512.Idx) :
    out0_A_4 (F := Ideal) c i arg1 harg1 arg2 harg2 arg3 harg3 arg4 harg4 arg5 harg5 x0 x1 x2 x3 y = colAct x0 x1 x2 x3 y := by
  unfold out0_A_4
  refine View.read_writes_apply_of_pieces _ _ (colAct x0 x1 x2 x3) _ ?_ y
    (cover0_A_4 c i arg1 harg1 arg2 harg2 arg3 harg3 arg4 harg4 arg5 harg5 x0 x1 x2 x3 y)
  unfold kernelRun0_A
  dsimp only
  sl_unfold_words
  intro p hp
  simp only [List.mem_cons, List.not_mem_nil, or_false] at hp
  -- the four stores, last first: rows 1536.., 1024.., 512.., 0..
  rcases hp with rfl | rfl | rfl | rfl
  · intro x
    simp only [View.readAt_eq_ld, harg1.read_unread, harg2.read_unread, harg3.read_unread, harg4.read_unread,
      View.ld_unit_zero (S := S512x512) hz, View.ld_unit_zero (S := S1x512) hz]
    rw [Band.fourth_eq]
    exact band_in_block 1536 _ x0 x1 x2 x3 x
  · intro x
    simp only [View.readAt_eq_ld, harg1.read_unread, harg2.read_unread, harg3.read_unread, harg4.read_unread,
      View.ld_unit_zero (S := S512x512) hz, View.ld_unit_zero (S := S1x512) hz]
    rw [Band.third_eq]
    exact band_in_block 1024 _ x0 x1 x2 x3 x
  · intro x
    simp only [View.readAt_eq_ld, harg1.read_unread, harg2.read_unread, harg3.read_unread, harg4.read_unread,
      View.ld_unit_zero (S := S512x512) hz, View.ld_unit_zero (S := S1x512) hz]
    rw [Band.second_eq]
    exact band_in_block 512 _ x0 x1 x2 x3 x
  · intro x
    simp only [View.readAt_eq_ld, harg1.read_unread, harg2.read_unread, harg3.read_unread, harg4.read_unread,
      View.ld_unit_zero (S := S512x512) hz, View.ld_unit_zero (S := S1x512) hz]
    rw [Band.first_eq]
    exact band_in_block 0 _ x0 x1 x2 x3 x

end Cert.KernelIdeal.Block

end
-- ==== Proof.Result.lean ====
/-
  The kernel's result array: the activation, weights by row, of the four arguments.

  The grid has 16 points; point t is handed rows 2048·t to 2048·t + 2047 of x, and — at every point — the whole of three
  arrays the host prepared before the launch: wt, the transpose of w (narrowed to bf16, the identity on extended reals),
  so wt[d, f] = w[f, d]; and a2, b2, the vectors a and b recast as one-row matrices, so a2[0, f] = a[f], b2[0, f] = b[f].
  The body leaves in its output block the activation with the weights by column of those four blocks (Block.lean);
  renaming the entries, that is rows 2048·t … of the activation with the weights by row of x, w, a, b. Point t writes
  its block back to rows 2048·t … of the result, and the 16 bands of 2048 rows fill the 32768 rows: the result array
  is that one function of the arguments.
-/
import proofs.«419012_j32212254720543_3_alg».proof.Proof.Gen.KernelIdeal.Value
import proofs.«419012_j32212254720543_3_alg».proof.Proof.Block
import Idealize.ShloMosaic.Lib.StableHlo.Run
import Idealize.ShloMosaic.Lib.Pipeline.Value

set_option maxRecDepth 16384

noncomputable section

namespace Cert.KernelIdeal.Result

open Cert.KernelIdeal Cert.KernelIdeal.Gen Idealize.ShloMosaic Idealize.ShloMosaic.TcCoe Idealize.SL.Sem
open Idealize.ShloMosaic.ValueIdx RankAct Idealize.ShloMosaic.StableHlo
open Idealize.ShloMosaic.Pipeline (Dat)

variable (m : (ℓ : Loc nD τ sig) → Buf (Elt Ideal) ℓ) (ρ : Dev nD → PrngReg)

/-! ## The arguments, and what the host prepared from them -/

abbrev argX (c : Dev nD) : Vec Ideal S32768x512 .f32 := m ((c : Thread nD τ).loc main_arg0)
abbrev argW (c : Dev nD) : Vec Ideal S512x512 .f32 := m ((c : Thread nD τ).loc main_arg1)
abbrev argA (c : Dev nD) : Vec Ideal S512 .f32 := m ((c : Thread nD τ).loc main_arg2)
abbrev argB (c : Dev nD) : Vec Ideal S512 .f32 := m ((c : Thread nD τ).loc main_arg3)

/-- The activation of the arguments, weights by row: what the result array will be shown to hold. -/
abbrev result (c : Dev nD) : Buf (Elt Ideal) ((c : Thread nD τ).loc main_v4) :=
  rowAct (argX m c) (argW m c) (argA m c) (argB m c)

/-- The matrix the region finds in place of w is its transpose: entry (d, f) is w[f, d]. -/
theorem wt_apply (c : Dev nD) (k f : Fin 512) :
    (V m c main_v1 : S512x512.Idx → EReal) (ix2 k f) = argW m c (ix2 f k) := by
  have e : @Eq (S512x512.Idx → EReal) (V m c main_v1)
      (truncf (F := Ideal) .bf16 (transpose S512x512 [1, 0] (argW m c) transposes_S512x512_S512x512_1_0) bitsLt_bf16_f32) := by
    dsimp only [V, hostOps0]; after_results
  rw [e]
  show transpose S512x512 [1, 0] (argW m c) transposes_S512x512_S512x512_1_0 (ix2 k f) = _
  exact transpose_apply [1, 0] (argW m c) transposes_S512x512_S512x512_1_0 (ix2 k f) (ix2 f k)
    (fun b => by match b with | ⟨0, _⟩ => rfl | ⟨1, _⟩ => rfl)

/-- A vector recast as a one-row matrix has the vector's entry f at (0, f). -/
theorem oneRow_apply (v : Vec Ideal S512 .f32) (f : Fin 512) :
    shapeCast S1x512 v shapeCasts_S512_S1x512 (ix2 (0 : Fin 1) f) = v (ix1 f) :=
  (shapeCast_addUnit_apply ![512] v shapeCasts_S512_S1x512 (ix2 (0 : Fin 1) f)).trans
    (congrArg v (funext fun a => by match a with | ⟨0, _⟩ => rfl))

/-- The one-row matrix the region finds for the scale holds a. -/
theorem a2_apply (c : Dev nD) (f : Fin 512) :
    (V m c main_v2 : S1x512.Idx → EReal) (ix2 (0 : Fin 1) f) = argA m c (ix1 f) := by
  have e : @Eq (S1x512.Idx → EReal) (V m c main_v2) (shapeCast S1x512 (argA m c) shapeCasts_S512_S1x512) := by
    dsimp only [V, hostOps0]; after_results; rfl
  rw [e]
  exact oneRow_apply (argA m c) f

/-- The one-row matrix the region finds for the shift holds b. -/
theorem b2_apply (c : Dev nD) (f : Fin 512) :
    (V m c main_v3 : S1x512.Idx → EReal) (ix2 (0 : Fin 1) f) = argB m c (ix1 f) := by
  have e : @Eq (S1x512.Idx → EReal) (V m c main_v3) (shapeCast S1x512 (argB m c) shapeCasts_S512_S1x512) := by
    dsimp only [V, hostOps0]; after_results; rfl
  rw [e]
  exact oneRow_apply (argB m c) f

/-! ## The blocks the body is handed at point t -/

abbrev xblk (c : Dev nD) (t : Fin cfg0.N) : Vec Ideal S2048x512 .f32 := iblk m c 0 t
abbrev wblk (c : Dev nD) (t : Fin cfg0.N) : Vec Ideal S512x512 .bf16 := iblk m c 1 t
abbrev ablk (c : Dev nD) (t : Fin cfg0.N) : Vec Ideal S1x512 .f32 := iblk m c 2 t
abbrev bblk (c : Dev nD) (t : Fin cfg0.N) : Vec Ideal S1x512 .f32 := iblk m c 3 t

/-- The printed index maps, decided over the 16 points: x and the result move down one block of rows per point and
    stay in column block 0; the three prepared arrays are always taken whole. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Entry (p, q) of the block of x at point t is x[2048·t + p, q]. -/
theorem xblk_apply (c : Dev nD) (t : Fin cfg0.N) (y : S2048x512.Idx) (i : S32768x512.Idx)
    (h0 : (i 0).val = t.val * 2048 + (y 0).val) (h1 : (i 1).val = (y 1).val) :
    xblk m c t y = argX m c i := by
  obtain ⟨e00, e01, -⟩ := idx_facts t
  show V m c main_arg0 (((cfg0.win 0).blk t).view.emb y) = _
  rw [V_main_arg0]
  refine congrArg (argX m c) (funext fun a => Fin.ext ?_)
  match a with
  | ⟨0, _⟩ => show win0_0.index t (0 : Fin 2) * 2048 + 1 * (y 0).val = (i 0).val; omega
  | ⟨1, _⟩ => show win0_0.index t (1 : Fin 2) * 512 + 1 * (y 1).val = (i 1).val; omega

/-- The block of wt at any point is all of wt: entry (d, f) is w[f, d]. -/
theorem wblk_apply (c : Dev nD) (t : Fin cfg0.N) (k f : Fin 512) : wblk m c t (ix2 k f) = argW m c (ix2 f k) := by
  obtain ⟨-, -, e10, e11, -⟩ := idx_facts t
  show (V m c main_v1 : S512x512.Idx → EReal) (((cfg0.win 1).blk t).view.emb (ix2 k f)) = _
  have hi : ((cfg0.win 1).blk t).view.emb (ix2 k f) = ix2 k f := funext fun a => Fin.ext (by
    match a with
    | ⟨0, _⟩ => show win0_1.index t (0 : Fin 2) * 512 + 1 * k.val = k.val; omega
    | ⟨1, _⟩ => show win0_1.index t (1 : Fin 2) * 512 + 1 * f.val = f.val; omega)
  rw [hi]
  exact wt_apply m c k f

/-- The block of a2 at any point is all of a2: entry (0, f) is a[f]. -/
theorem ablk_apply (c : Dev nD) (t : Fin cfg0.N) (f : Fin 512) : ablk m c t (ix2 (0 : Fin 1) f) = argA m c (ix1 f) := by
  obtain ⟨-, -, -, -, e20, e21, -⟩ := idx_facts t
  show (V m c main_v2 : S1x512.Idx → EReal) (((cfg0.win 2).blk t).view.emb (ix2 (0 : Fin 1) f)) = _
  have hi : ((cfg0.win 2).blk t).view.emb (ix2 (0 : Fin 1) f) = ix2 (0 : Fin 1) f := funext fun a => Fin.ext (by
    match a with
    | ⟨0, _⟩ => show win0_2.index t (0 : Fin 2) * 1 + 1 * 0 = 0; omega
    | ⟨1, _⟩ => show win0_2.index t (1 : Fin 2) * 512 + 1 * f.val = f.val; omega)
  rw [hi]
  exact a2_apply m c f

/-- The block of b2 at any point is all of b2: entry (0, f) is b[f]. -/
theorem bblk_apply (c : Dev nD) (t : Fin cfg0.N) (f : Fin 512) : bblk m c t (ix2 (0 : Fin 1) f) = argB m c (ix1 f) := by
  obtain ⟨-, -, -, -, -, -, e30, e31, -⟩ := idx_facts t
  show (V m c main_v3 : S1x512.Idx → EReal) (((cfg0.win 3).blk t).view.emb (ix2 (0 : Fin 1) f)) = _
  have hi : ((cfg0.win 3).blk t).view.emb (ix2 (0 : Fin 1) f) = ix2 (0 : Fin 1) f := funext fun a => Fin.ext (by
    match a with
    | ⟨0, _⟩ => show win0_3.index t (0 : Fin 2) * 1 + 1 * 0 = 0; omega
    | ⟨1, _⟩ => show win0_3.index t (1 : Fin 2) * 512 + 1 * f.val = f.val; omega)
  rw [hi]
  exact b2_apply m c f

/-! ## From the blocks to the array -/

/-- WHAT POINT t WRITES BACK is rows 2048·t to 2048·t + 2047 of the activation of the arguments. -/
theorem flushed_eq (c : Dev nD) (t : Fin cfg0.N) :
    (dats m 0 c).flushed 4 t = ((cfg0.win 4).blk t).view.read (Elt Ideal) (result m c) := by
  rw [Value.flushed4_A]
  obtain ⟨-, -, -, -, -, -, -, -, e40, e41⟩ := idx_facts t
  funext j
  show out0_A_4 (F := Ideal) c (grid0.coords t) (ms0_0 t) (hs0_0 t) (ms0_1 t) (hs0_1 t) (ms0_2 t) (hs0_2 t) (ms0_3 t) (hs0_3 t)
        (ms0_4 t) (hs0_4 t) (xblk m c t) (wblk m c t) (ablk m c t) (bblk m c t) j
      = rowAct (argX m c) (argW m c) (argA m c) (argB m c) (((cfg0.win 4).blk t).view.emb j)
  refine (Block.out_eq c (grid0.coords t) (ms0_0 t) (hs0_0 t) (ms0_1 t) (hs0_1 t) (ms0_2 t) (hs0_2 t) (ms0_3 t) (hs0_3 t)
    (ms0_4 t) (hs0_4 t) (xblk m c t) (wblk m c t) (ablk m c t) (bblk m c t) j).trans ?_
  have h0 : ((((cfg0.win 4).blk t).view.emb j) 0 : Nat) = t.val * 2048 + (j 0).val := by
    show win0_4.index t (0 : Fin 2) * 2048 + 1 * (j 0).val = _; omega
  have h1 : ((((cfg0.win 4).blk t).view.emb j) 1 : Nat) = (j 1).val := by
    show win0_4.index t (1 : Fin 2) * 512 + 1 * (j 1).val = _; omega
  exact colAct_eq_rowAct (xblk m c t) (argX m c) (wblk m c t) (argW m c) (ablk m c t) (bblk m c t) (argA m c) (argB m c) j
    (((cfg0.win 4).blk t).view.emb j)
    (fun k => xblk_apply m c t (ix2 (rowOf j) k) (ix2 (rowOf (((cfg0.win 4).blk t).view.emb j)) k) h0 rfl) h1.symm
    (wblk_apply m c t) (ablk_apply m c t) (bblk_apply m c t)

/-- Every row of the result lies in the band of the point its number divided by 2048 names. -/
theorem cover (c : Dev nD) (i : S32768x512.Idx) :
    ∃ t : Fin cfg0.N, (cfg0.win 4).flush t = true ∧ i ∈ ((cfg0.win 4).blk t).view.set := by
  have hN : cfg0.N = 16 := N_0
  have hi0 : (i 0).val < 32768 := (i 0).isLt
  have hi1 : (i 1).val < 512 := (i 1).isLt
  have ht : (i 0).val / 2048 < cfg0.N := by rw [hN]; omega
  obtain ⟨-, -, -, -, -, -, -, -, e40, e41⟩ := idx_facts ⟨(i 0).val / 2048, ht⟩
  refine ⟨⟨(i 0).val / 2048, ht⟩, flush0_4 _, ?_⟩
  show i ∈ ((View.whole main_v4).slice (win0_4.rect ⟨(i 0).val / 2048, ht⟩)).set
  rw [View.set_slice_whole, Rect.mem_set_unit]
  intro a
  match a with
  | ⟨0, _⟩ =>
    show win0_4.index ⟨(i 0).val / 2048, ht⟩ (0 : Fin 2) * 2048 ≤ (i 0).val
      ∧ (i 0).val < win0_4.index ⟨(i 0).val / 2048, ht⟩ (0 : Fin 2) * 2048 + 2048
    have e : win0_4.index ⟨(i 0).val / 2048, ht⟩ (0 : Fin 2) = (i 0).val / 2048 := e40
    omega
  | ⟨1, _⟩ =>
    show win0_4.index ⟨(i 0).val / 2048, ht⟩ (1 : Fin 2) * 512 ≤ (i 1).val
      ∧ (i 1).val < win0_4.index ⟨(i 0).val / 2048, ht⟩ (1 : Fin 2) * 512 + 512
    omega

/-- THE RESULT ARRAY after the run. -/
theorem final (c : Dev nD) : (dats m 0 c).arrAt 4 cfg0.N = result m c :=
  (dats m 0 c).arrAt_eq_of_cover 4 (result m c) (fun t _ => flushed_eq m c t) (cover c)

/-- The kernel's run: it terminates, nothing faulting, with the result array at the activation of the arguments and
    the arguments as they were. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Result

end
-- ==== Proof.RefAct.lean ====
/-
  The reference, entry by entry: its eight host operations — the contraction of x's axis 1 with w's axis 1, the scale
  and the shift each broadcast from a vector through a one-row matrix to every row, a product, a sum, tanh — compose,
  at the entry (r, f), to tanh(a[f] · (Σ_d x[r, d] · w[f, d]) + b[f]): the activation with the weights read by row.
  Each operation is read at an index by its generated lemma; what is written here is only that the indices those
  lemmas compose are the entry's row and column.
-/
import proofs.«419012_j32212254720543_3_alg».proof.Proof.Gen.ReferenceIdeal.Read
import proofs.«419012_j32212254720543_3_alg».proof.Proof.ActSpec

noncomputable section

namespace Cert.ReferenceIdeal.RefValue

open Cert.ReferenceIdeal Cert.ReferenceIdeal.Read Idealize.ShloMosaic Idealize.ShloMosaic.ValueIdx RankAct

/-- The reference's result array is `rowAct` of its four arguments. -/
theorem val_eq_rowAct (x : (⟨S32768x512, .f32⟩ : BufTy).Contents (Elt Ideal)) (w : (⟨S512x512, .f32⟩ : BufTy).Contents (Elt Ideal))
    (a b : (⟨S512, .f32⟩ : BufTy).Contents (Elt Ideal)) :
    val_main_v7 (F := Ideal) x w a b = rowAct x w a b := by
  funext i
  -- the scale and the shift are read at the entry's column, through both broadcasts
  have ea : idx_main_v1 (idx_main_v2 i) = ix1 (colOf i) := funext fun d => Fin.ext (by match d with | ⟨0, _⟩ => rfl)
  have eb : idx_main_v4 (idx_main_v5 i) = ix1 (colOf i) := funext fun d => Fin.ext (by match d with | ⟨0, _⟩ => rfl)
  -- the contraction reads x in the entry's row and w in the row the entry's column names
  have el : ∀ k : Fin 512, lidx_main_v0 i k = ix2 (rowOf i) k := fun k =>
    funext fun d => Fin.ext (by match d with | ⟨0, _⟩ => rfl | ⟨1, _⟩ => rfl)
  have er : ∀ k : Fin 512, ridx_main_v0 i k = ix2 (colOf i) k := fun k =>
    funext fun d => Fin.ext (by match d with | ⟨0, _⟩ => rfl | ⟨1, _⟩ => rfl)
  rw [val_main_v7_apply, val_main_v6_apply, val_main_v3_apply, val_main_v2_apply, val_main_v1_apply, val_main_v0_apply,
    val_main_v5_apply, val_main_v4_apply]
  simp only [ea, eb, el, er]
  rfl

end Cert.ReferenceIdeal.RefValue

end
-- ==== Proof.lean ====
/-
  The kernel and its reference compute one function of the arguments x : [32768, 512], w : [512, 512], a, b : [512] over
  the extended reals:

      out[r, f] = tanh(a[f] · (Σ_d x[r, d] · w[f, d]) + b[f]).

  The reference does it in eight host operations on whole arrays (RefAct.lean). The kernel transposes w once on the
  host, recasts a and b as one-row matrices, and then walks the rows of x in 16 blocks of 2048; inside a block it works
  band by band, 512 rows at a time: band · wt from a zero accumulator, scaled by a, shifted by b, through tanh
  (Band.lean); the four bands tile the block (Block.lean) and the 16 blocks tile the result (Result.lean). The two
  sides contract over d in the same order with the factors in the same order, and scale, shift and tanh are applied in
  the same order: passing from one to the other only renames entries (wt[d, f] is w[f, d]; a2[0, f] is a[f]; row p of
  band j of block t is row 2048·t + 512·j + p), so no law of the arithmetic of the extended reals is used beyond the
  product into a zero accumulator being the plain sum, and the precondition (finite inputs) is never opened.
  The narrowing of x and wt to bf16 in the kernel is the identity on extended reals; the ideal pass rewrote nothing, so
  that the idealized kernel is the kernel's sanctioned idealization holds trivially.
-/
import proofs.«419012_j32212254720543_3_alg».proof.Defs
import proofs.«419012_j32212254720543_3_alg».proof.Proof.Gen.Kernel
import proofs.«419012_j32212254720543_3_alg».proof.Proof.Gen.Kernel.Skeleton
import proofs.«419012_j32212254720543_3_alg».proof.Proof.Gen.Kernel.Launch
import proofs.«419012_j32212254720543_3_alg».proof.Proof.Gen.Kernel.Points
import proofs.«419012_j32212254720543_3_alg».proof.Proof.Gen.Kernel.Frame
import proofs.«419012_j32212254720543_3_alg».proof.Proof.Gen.KernelIdeal
import proofs.«419012_j32212254720543_3_alg».proof.Proof.Gen.KernelIdeal.Skeleton
import proofs.«419012_j32212254720543_3_alg».proof.Proof.Gen.KernelIdeal.Launch
import proofs.«419012_j32212254720543_3_alg».proof.Proof.Gen.KernelIdeal.Points
import proofs.«419012_j32212254720543_3_alg».proof.Proof.Gen.KernelIdeal.Frame
import proofs.«419012_j32212254720543_3_alg».proof.Proof.Gen.ReferenceIdeal
import proofs.«419012_j32212254720543_3_alg».proof.Proof.Gen.Pre_finite_inputs
import proofs.«419012_j32212254720543_3_alg».proof.Proof.Gen.KernelIdeal.Value
import proofs.«419012_j32212254720543_3_alg».proof.Proof.Gen.ReferenceIdeal.Run
import proofs.«419012_j32212254720543_3_alg».proof.Proof.Gen.ReferenceIdeal.Read
import proofs.«419012_j32212254720543_3_alg».proof.Proof.Result
import proofs.«419012_j32212254720543_3_alg».proof.Proof.RefAct
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments alone: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the result array at the activation of the
    arguments, weights by row: the kernel by Result.lean, the reference by RefAct.lean. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.val_eq_rowAct,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
